-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v51)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128x128 .f32) (main_arg10 : FVec F S128x128 .f32) (main_arg11 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : IVec S2x800000 32) (main_arg2 : IVec S50000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S5000x128 : Shape := ⟨2, ![5000, 128]⟩
abbrev S1x128 : Shape := ⟨2, ![1, 128]⟩
abbrev S64x128 : Shape := ⟨2, ![64, 128]⟩
abbrev S50000x1 : Shape := ⟨2, ![50000, 1]⟩
abbrev S64x1 : Shape := ⟨2, ![64, 1]⟩

abbrev nBuf : Space → Nat
  | .hbm => 79
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S128, .f32⟩
  | .hbm, ⟨18, _⟩ => ⟨S_, .f32⟩
  | .hbm, ⟨19, _⟩ => ⟨S_, .f32⟩
  | .hbm, ⟨20, _⟩ => ⟨S128, .f32⟩
  | .hbm, ⟨21, _⟩ => ⟨S128, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S_, .f32⟩
  | .hbm, ⟨32, _⟩ => ⟨S50000x128, .f32⟩
  | .hbm, ⟨33, _⟩ => ⟨S800000x1, .i32⟩
  | .hbm, ⟨34, _⟩ => ⟨S50000x128, .f32⟩
  | .hbm, ⟨35, _⟩ => ⟨S50000x128, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x128, .f32⟩
  | .hbm, ⟨45, _⟩ => ⟨S_, .f32⟩
  | .hbm, ⟨46, _⟩ => ⟨S50000x128, .f32⟩
  | .hbm, ⟨47, _⟩ => ⟨S800000x1, .i32⟩
  | .hbm, ⟨48, _⟩ => ⟨S50000x128, .f32⟩
  | .hbm, ⟨49, _⟩ => ⟨S50000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S64x128, .f32⟩
  | .hbm, ⟨66, _⟩ => ⟨S50000x1, .i32⟩
  | .hbm, ⟨67, _⟩ => ⟨S64x128, .f32⟩
  | .hbm, ⟨68, _⟩ => ⟨S_, .f32⟩
  | .hbm, ⟨69, _⟩ => ⟨S50000x1, .f32⟩
  | .hbm, ⟨70, _⟩ => ⟨S_, .f32⟩
  | .hbm, ⟨71, _⟩ => ⟨S64x1, .f32⟩
  | .hbm, ⟨72, _⟩ => ⟨S50000x1, .i32⟩
  | .hbm, ⟨73, _⟩ => ⟨S64x1, .f32⟩
  | .hbm, ⟨74, _⟩ => ⟨S_, .f32⟩
  | .hbm, ⟨75, _⟩ => ⟨S64x1, .f32⟩
  | .hbm, ⟨76, _⟩ => ⟨S64x1, .f32⟩
  | .hbm, ⟨77, _⟩ => ⟨S64x128, .f32⟩
  | .hbm, ⟨78, _⟩ => ⟨S64x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S128, .f32⟩
  | .local _ .vmem, ⟨25, _⟩ => ⟨S5000x128, .f32⟩
  | .local _ .vmem, ⟨26, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_9 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_cst_11 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_12 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  reducesTo_S50000x128_S128_d0 : S50000x128.ReducesTo [0] S128
  h_S_ : 0 < S_.numel
  reducesTo_S128_S_d0 : S128.ReducesTo [0] S_
  bcast_S_S128 : S_.BroadcastsInDim S128 (![] : Fin 0 → Fin S128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S64x128 : S_.BroadcastsInDim S64x128 (![] : Fin 0 → Fin S64x128.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S64x128_S50000x1_S50000x128_1_0_0_1_wf : ScatterDims.WF S64x128 S50000x1 S50000x128 [1] [0] [0] 1
  scatter_S64x1_S50000x1_S50000x1_1_0_0_1_wf : ScatterDims.WF S64x1 S50000x1 S50000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64x1_S50000x1_S50000x1_1_0_0_1 : ScatterDims S64x1 S50000x1 S50000x1 where
  updateWindowDims := [1]
  insertedWindowDims := [0]
  scatterDimsToOperandDims := [0]
  indexVectorDim := 1
  wf := scatter_S64x1_S50000x1_S50000x1_1_0_0_1_wf

abbrev win0_0 : Pipeline.Window sig grid0 :=
  Pipeline.Window.ofSpec (Memref.whole main_v17) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v40) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S64x128 : Shape := ⟨2, ![64, 128]⟩
abbrev S50000x1 : Shape := ⟨2, ![50000, 1]⟩
abbrev S64x1 : Shape := ⟨2, ![64, 1]⟩

abbrev nBuf : Space → Nat
  | .hbm => 103
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S128, .f32⟩
  | .hbm, ⟨18, _⟩ => ⟨S_, .f32⟩
  | .hbm, ⟨19, _⟩ => ⟨S_, .f32⟩
  | .hbm, ⟨20, _⟩ => ⟨S128, .f32⟩
  | .hbm, ⟨21, _⟩ => ⟨S128, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S_, .f32⟩
  | .hbm, ⟨32, _⟩ => ⟨S50000x128, .f32⟩
  | .hbm, ⟨33, _⟩ => ⟨S800000x1, .i32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S_, .f32⟩
  | .hbm, ⟨42, _⟩ => ⟨S50000x128, .f32⟩
  | .hbm, ⟨43, _⟩ => ⟨S50000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S50000x128, .f32⟩
  | .hbm, ⟨65, _⟩ => ⟨S50000x128, .f32⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x128, .f32⟩
  | .hbm, ⟨75, _⟩ => ⟨S_, .f32⟩
  | .hbm, ⟨76, _⟩ => ⟨S50000x128, .f32⟩
  | .hbm, ⟨77, _⟩ => ⟨S800000x1, .i32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S50000x128, .f32⟩
  | .hbm, ⟨87, _⟩ => ⟨S50000x128, .f32⟩
  | .hbm, ⟨88, _⟩ => ⟨S_, .f32⟩
  | .hbm, ⟨89, _⟩ => ⟨S64x128, .f32⟩
  | .hbm, ⟨90, _⟩ => ⟨S50000x1, .i32⟩
  | .hbm, ⟨91, _⟩ => ⟨S64x128, .f32⟩
  | .hbm, ⟨92, _⟩ => ⟨S_, .f32⟩
  | .hbm, ⟨93, _⟩ => ⟨S50000x1, .f32⟩
  | .hbm, ⟨94, _⟩ => ⟨S_, .f32⟩
  | .hbm, ⟨95, _⟩ => ⟨S64x1, .f32⟩
  | .hbm, ⟨96, _⟩ => ⟨S50000x1, .i32⟩
  | .hbm, ⟨97, _⟩ => ⟨S64x1, .f32⟩
  | .hbm, ⟨98, _⟩ => ⟨S_, .f32⟩
  | .hbm, ⟨99, _⟩ => ⟨S64x1, .f32⟩
  | .hbm, ⟨100, _⟩ => ⟨S64x1, .f32⟩
  | .hbm, ⟨101, _⟩ => ⟨S64x128, .f32⟩
  | .hbm, ⟨102, _⟩ => ⟨S64x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call0_cst : Ref sig .tc := ⟨.hbm, 41, rfl⟩
abbrev main_call0_v0 : Ref sig .tc := ⟨.hbm, 42, rfl⟩
abbrev main_v24 : Ref sig .tc := ⟨.hbm, 43, rfl⟩
abbrev main_c_3 : Ref sig .tc := ⟨.hbm, 44, rfl⟩
abbrev main_v25 : Ref sig .tc := ⟨.hbm, 45, rfl⟩
abbrev main_v26 : Ref sig .tc := ⟨.hbm, 46, rfl⟩
abbrev main_c_4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_call1_cst : Ref sig .tc := ⟨.hbm, 63, rfl⟩
abbrev main_call1_v0 : Ref sig .tc := ⟨.hbm, 64, rfl⟩
abbrev main_v41 : Ref sig .tc := ⟨.hbm, 65, rfl⟩
abbrev main_c_6 : Ref sig .tc := ⟨.hbm, 66, rfl⟩
abbrev main_v42 : Ref sig .tc := ⟨.hbm, 67, rfl⟩
abbrev main_v43 : Ref sig .tc := ⟨.hbm, 68, rfl⟩
abbrev main_c_7 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_8 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_call2_cst : Ref sig .tc := ⟨.hbm, 85, rfl⟩
abbrev main_call2_v0 : Ref sig .tc := ⟨.hbm, 86, rfl⟩
abbrev main_v58 : Ref sig .tc := ⟨.hbm, 87, rfl⟩
abbrev main_cst_9 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_10 : Ref sig .tc := ⟨.hbm, 92, rfl⟩
abbrev main_v62 : Ref sig .tc := ⟨.hbm, 93, rfl⟩
abbrev main_cst_11 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_12 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  reducesTo_S50000x128_S128_d0 : S50000x128.ReducesTo [0] S128
  h_S_ : 0 < S_.numel
  reducesTo_S128_S_d0 : S128.ReducesTo [0] S_
  bcast_S_S128 : S_.BroadcastsInDim S128 (![] : Fin 0 → Fin S128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1
  scatter_S64x1_S50000x1_S50000x1_1_0_0_1_wf : ScatterDims.WF S64x1 S50000x1 S50000x1 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64x1_S50000x1_S50000x1_1_0_0_1 : ScatterDims S64x1 S50000x1 S50000x1 where
  updateWindowDims := [1]
  insertedWindowDims := [0]
  scatterDimsToOperandDims := [0]
  indexVectorDim := 1
  wf := scatter_S64x1_S50000x1_S50000x1_1_0_0_1_wf

class Facts : Prop extends Facts₀ where

variable [Facts]
-- ==== Proof.LayerEntry.lean ====
/-
  One entry of a dense graph-convolution layer, over the extended reals.

  A layer sends the aggregated neighbour features `A` and the node features `H` (both rows × 128) to
  `max (A · W_rel + H · W_root + b, 0)`. Entry `(r, j)` of the result depends only on row `r` of `A`, row `r`
  of `H`, column `j` of the two weight matrices and entry `j` of the bias:

      max ((∑ k, A[r,k] · W_rel[k,j] + ∑ k, H[r,k] · W_root[k,j]) + b[j], 0).

  `entry` is that number as a function of the two rows, so it says nothing about how many rows there are:
  it reads the same for a whole 50000-row array and for a 5000-row block of it. The zero is kept as the
  float word it is printed as; both programs carry the same word, so it is never evaluated.
-/
import Idealize.ShloMosaic.PureOps.Ideal
import Idealize.ShloMosaic.Lib.ValueIdx

noncomputable section

namespace GraphConv

open Idealize.ShloMosaic Idealize.ShloMosaic.ValueIdx

/-- Entry `j` of one output row: the two rows' products with column `j` of the weights, summed, plus the
    bias entry, cut off below at zero. -/
def entry (ra rh : Fin 128 → EReal) (wrel wroot : (⟨2, ![128, 128]⟩ : Shape).Idx → EReal)
    (b : (⟨1, ![128]⟩ : Shape).Idx → EReal) (j : Fin 128) : EReal :=
  max ((∑ k : Fin 128, ra k * wrel (ix2 k j) + ∑ k : Fin 128, rh k * wroot (ix2 k j)) + b (ix1 j))
    (Ideal.ofBits .f32 0x00000000#32)

/-- The entry depends on the rows only through their values. -/
theorem entry_congr {ra ra' rh rh' : Fin 128 → EReal} (ha : ∀ k, ra k = ra' k) (hh : ∀ k, rh k = rh' k)
    (wrel wroot : (⟨2, ![128, 128]⟩ : Shape).Idx → EReal) (b : (⟨1, ![128]⟩ : Shape).Idx → EReal) (j : Fin 128) :
    entry ra rh wrel wroot b j = entry ra' rh' wrel wroot b j := by
  rw [show ra = ra' from funext ha, show rh = rh' from funext hh]

end GraphConv

end
-- ==== Proof.KernelPay.lean ====
/-
  What one grid point of the linear-and-ReLU kernel stores, read at an entry of its 5000 × 128 block.

  At the exact reals the kernel's narrowing of its operands to bfloat16 is the identity, a matrix product into a
  zero accumulator is the plain sum of products, and the bias row `[128] → [1, 128] → [5000, 128]` reads, at
  `(p, q)`, the bias at `q`. So entry `(p, q)` of the stored block is `GraphConv.entry` of row `p` of the two loaded
  blocks. The three launches of the kernel print the same arithmetic (the second and third pass the node-feature
  block through one more same-shape cast), so one lemma over the pieces serves all three.
-/
import proofs.«172164_j18305150615818_1_alg».proof.Proof.Gen.KernelIdeal.Skeleton
import proofs.«172164_j18305150615818_1_alg».proof.Proof.LayerEntry
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.LayerValue

open Cert.KernelIdeal Cert.KernelIdeal.Gen Idealize.ShloMosaic Idealize.ShloMosaic.TcCoe Idealize.ShloMosaic.ValueIdx

/-! ## The block product's operand indices -/

theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into the zero accumulator, at entry `(p, q)`: row `p` of the left operand against column `q`
    of the right. -/
theorem matmul_zero_at {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  show FloatOps.matmul dot_S5000x128_S128x128_S5000x128_1_0_0_1_n_n none l r (constant S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- The bias as the kernel lays it out — the vector as one row, that row repeated down the block — at `(p, q)`. -/
theorem bias_at (b : Vec Ideal S128 .f32) (p : Fin 5000) (q : Fin 128) :
    broadcastTo S5000x128 (shapeCast S1x128 b shapeCasts_S128_S1x128) broadcasts_S1x128_S5000x128 (ix2 p q) = b (ix1 q) :=
  (broadcastTo_1b_ab_apply _ broadcasts_S1x128_S5000x128 p q).trans
    (shapeCast_a_1a_apply b shapeCasts_S128_S1x128 (0 : Fin 1) q)

/-- The kernel's arithmetic over its pieces, at entry `(p, q)` of the block. -/
theorem relu_affine_at {φ₁ φ₂ : FTy} (l1 l2 : FVec Ideal S5000x128 φ₁) (r1 r2 : FVec Ideal S128x128 φ₂) (b : Vec Ideal S128 .f32)
    (p : Fin 5000) (q : Fin 128) :
    maximumf (addf (addf (matmul dot_S5000x128_S128x128_S5000x128_1_0_0_1_n_n none l1 r1 (constant S5000x128 .f32 0x00000000#32))
        (matmul dot_S5000x128_S128x128_S5000x128_1_0_0_1_n_n none l2 r2 (constant S5000x128 .f32 0x00000000#32)))
        (broadcastTo S5000x128 (shapeCast S1x128 b shapeCasts_S128_S1x128) broadcasts_S1x128_S5000x128))
      (broadcast S5000x128 (Scalar.ofBits (F := Ideal) .f32 0x00000000#32)) (ix2 p q)
      = GraphConv.entry (fun k => l1 (ix2 p k)) (fun k => l2 (ix2 p k)) r1 r2 b q := by
  show max ((matmul dot_S5000x128_S128x128_S5000x128_1_0_0_1_n_n none l1 r1 (constant S5000x128 .f32 0x00000000#32) (ix2 p q)
      + matmul dot_S5000x128_S128x128_S5000x128_1_0_0_1_n_n none l2 r2 (constant S5000x128 .f32 0x00000000#32) (ix2 p q))
      + broadcastTo S5000x128 (shapeCast S1x128 b shapeCasts_S128_S1x128) broadcasts_S1x128_S5000x128 (ix2 p q))
    (Ideal.ofBits .f32 0x00000000#32) = _
  rw [matmul_zero_at, matmul_zero_at, bias_at]
  rfl

/-! ## The three launches -/

/-- First launch: entry `(p, q)` of what a point stores. -/
theorem pay0_at (x0 x1 : Vec Ideal S5000x128 .f32) (w1 w2 : Vec Ideal S128x128 .f32) (b : Vec Ideal S128 .f32) (p : Fin 5000) (q : Fin 128) :
    k0_pay1 (F := Ideal) x0 x1 w1 w2 b (ix2 p q) = GraphConv.entry (fun k => x0 (ix2 p k)) (fun k => x1 (ix2 p k)) w1 w2 b q := by
  unfold k0_pay1
  rw [shapeCast_self]
  exact relu_affine_at (φ₁ := .bf16) (φ₂ := .bf16) x0 x1 w1 w2 b p q

/-- Second launch. -/
theorem pay1_at (x0 x1 : Vec Ideal S5000x128 .f32) (w1 w2 : Vec Ideal S128x128 .f32) (b : Vec Ideal S128 .f32) (p : Fin 5000) (q : Fin 128) :
    k1_pay1 (F := Ideal) x0 x1 w1 w2 b (ix2 p q) = GraphConv.entry (fun k => x0 (ix2 p k)) (fun k => x1 (ix2 p k)) w1 w2 b q := by
  unfold k1_pay1
  rw [shapeCast_self, shapeCast_self]
  exact relu_affine_at (φ₁ := .bf16) (φ₂ := .bf16) x0 x1 w1 w2 b p q

/-- Third launch. -/
theorem pay2_at (x0 x1 : Vec Ideal S5000x128 .f32) (w1 w2 : Vec Ideal S128x128 .f32) (b : Vec Ideal S128 .f32) (p : Fin 5000) (q : Fin 128) :
    k2_pay1 (F := Ideal) x0 x1 w1 w2 b (ix2 p q) = GraphConv.entry (fun k => x0 (ix2 p k)) (fun k => x1 (ix2 p k)) w1 w2 b q := by
  unfold k2_pay1
  rw [shapeCast_self, shapeCast_self]
  exact relu_affine_at (φ₁ := .bf16) (φ₂ := .bf16) x0 x1 w1 w2 b p q

end Cert.KernelIdeal.LayerValue

end
-- ==== Proof.RefStages.lean ====
/-
  The reference program read as three dense graph-convolution layers between its gathers and scatters.

  The reference computes, three times over, `h ↦ max (agg(h) · W_rel + h · W_root + b, 0)` where `agg(h)` gathers
  the rows of `h` at the edges' sources and adds them up at the edges' targets; then it pools the rows by graph
  and divides by the clipped graph sizes; beside that it returns the column sums of `x` over their total. Here
  those pieces are named once — `agg`, `layer`, `pool`, `colshare` — over the operations the program prints, the
  program's two results are shown to be their composition, and `layer` is read at an entry: it is
  `GraphConv.entry` of that entry's row of the two feature arrays.
-/
import proofs.«172164_j18305150615818_1_alg».proof.Proof.Gen.ReferenceIdeal.Read
import proofs.«172164_j18305150615818_1_alg».proof.Proof.LayerEntry

noncomputable section

namespace Cert.ReferenceIdeal.Stages

open Cert.ReferenceIdeal Cert.ReferenceIdeal.Gen Cert.ReferenceIdeal.Read Idealize.ShloMosaic Idealize.ShloMosaic.TcCoe Idealize.ShloMosaic.ValueIdx

variable {F : FTy → Type} [FloatOps F]

/-! ## The pieces -/

/-- The edges' source nodes (a negative index counted from the end, as the program normalises it) and target
    nodes, as the index columns the gather and the scatter take. -/
abbrev srcCol (e : (⟨S2x800000, .i32⟩ : BufTy).Contents (Elt F)) : (⟨S800000x1, .i32⟩ : BufTy).Contents (Elt F) := val_main_v13 (F := F) e
abbrev dstCol (e : (⟨S2x800000, .i32⟩ : BufTy).Contents (Elt F)) : (⟨S800000x1, .i32⟩ : BufTy).Contents (Elt F) := val_main_v16 (F := F) e

/-- The index columns from the edge list's two rows once they are flat vectors: a negative source index is counted
    from the end (the program adds the row count to it), and each vector becomes a column. -/
def srcOf (v : (⟨S800000, .i32⟩ : BufTy).Contents (Elt F)) : (⟨S800000x1, .i32⟩ : BufTy).Contents (Elt F) :=
  broadcastInDim S800000x1 ![0] bcast_S800000_S800000x1_0 (select (cmpi .slt v (val_main_v8 (F := F))) (addi v (val_main_v10 (F := F))) v)
def dstOf (v : (⟨S800000, .i32⟩ : BufTy).Contents (Elt F)) : (⟨S800000x1, .i32⟩ : BufTy).Contents (Elt F) :=
  broadcastInDim S800000x1 ![0] bcast_S800000_S800000x1_0 v
theorem srcCol_eq (e : (⟨S2x800000, .i32⟩ : BufTy).Contents (Elt F)) : srcCol e = srcOf (val_main_v1 (F := F) e) := rfl
theorem dstCol_eq (e : (⟨S2x800000, .i32⟩ : BufTy).Contents (Elt F)) : dstCol e = dstOf (val_main_v3 (F := F) e) := rfl

/-- Neighbour aggregation with the index columns given: gather the rows of `h` at the sources, add them into a
    zero array at the targets. -/
def aggAt (h : (⟨S50000x128, .f32⟩ : BufTy).Contents (Elt F)) (s d : (⟨S800000x1, .i32⟩ : BufTy).Contents (Elt F)) :
    (⟨S50000x128, .f32⟩ : BufTy).Contents (Elt F) :=
  Host.scatterAdd scatter_S50000x128_S800000x1_S800000x128_1_0_0_1 (val_main_v15 (F := F)) d
    (Host.gather gather_S50000x128_S800000x1_S800000x128_1_0_n_n_0_1_1128 h s)

/-- Neighbour aggregation over the edge list `e`. -/
def agg (h : (⟨S50000x128, .f32⟩ : BufTy).Contents (Elt F)) (e : (⟨S2x800000, .i32⟩ : BufTy).Contents (Elt F)) :
    (⟨S50000x128, .f32⟩ : BufTy).Contents (Elt F) :=
  aggAt h (srcCol e) (dstCol e)

theorem agg_eq (h : (⟨S50000x128, .f32⟩ : BufTy).Contents (Elt F)) (e : (⟨S2x800000, .i32⟩ : BufTy).Contents (Elt F)) :
    agg h e = aggAt h (srcOf (val_main_v1 (F := F) e)) (dstOf (val_main_v3 (F := F) e)) := rfl

/-- One layer on the host: `max (a · W_rel + h · W_root + b, 0)`. -/
def layer (a h : (⟨S50000x128, .f32⟩ : BufTy).Contents (Elt F)) (wrel wroot : (⟨S128x128, .f32⟩ : BufTy).Contents (Elt F))
    (b : (⟨S128, .f32⟩ : BufTy).Contents (Elt F)) : (⟨S50000x128, .f32⟩ : BufTy).Contents (Elt F) :=
  maximumf (addf (addf (val_main_v19 (F := F) a wrel) (val_main_v19 (F := F) h wroot)) (val_main_v22 (F := F) b)) (val_main_call0_v0 (F := F))

/-- Mean pooling by graph with the graph-index column given: the rows of `h` added up per graph, over the graph's
    size clipped below at one. -/
def poolAt (h : (⟨S50000x128, .f32⟩ : BufTy).Contents (Elt F)) (g : (⟨S50000x1, .i32⟩ : BufTy).Contents (Elt F)) :
    (⟨S64x128, .f32⟩ : BufTy).Contents (Elt F) :=
  Host.divf (Host.scatterAdd scatter_S64x128_S50000x1_S50000x128_1_0_0_1 (val_main_v59 (F := F)) g h)
    (broadcastInDim S64x128 ![0, 1] bcast_S64x1_S64x128_0_1
      (maximumf (Host.scatterAdd scatter_S64x1_S50000x1_S50000x1_1_0_0_1 (val_main_v63 (F := F)) g (val_main_v62 (F := F))) (val_main_v66 (F := F))))

/-- Mean pooling by the graph assignment `bt`. -/
def pool (h : (⟨S50000x128, .f32⟩ : BufTy).Contents (Elt F)) (bt : (⟨S50000, .i32⟩ : BufTy).Contents (Elt F)) :
    (⟨S64x128, .f32⟩ : BufTy).Contents (Elt F) :=
  poolAt h (val_main_v60 (F := F) bt)

/-- The column sums of `x` over their total. -/
def colshare (x : (⟨S50000x128, .f32⟩ : BufTy).Contents (Elt F)) : (⟨S128, .f32⟩ : BufTy).Contents (Elt F) :=
  val_main_v7 (F := F) x

/-! ## The program's results are their composition -/

/-- The three layers' outputs, each from the one before. -/
def h1 (x : (⟨S50000x128, .f32⟩ : BufTy).Contents (Elt F)) (e : (⟨S2x800000, .i32⟩ : BufTy).Contents (Elt F))
    (w3 w4 : (⟨S128x128, .f32⟩ : BufTy).Contents (Elt F)) (b5 : (⟨S128, .f32⟩ : BufTy).Contents (Elt F)) :=
  layer (agg x e) x w3 w4 b5
def h2 (x : (⟨S50000x128, .f32⟩ : BufTy).Contents (Elt F)) (e : (⟨S2x800000, .i32⟩ : BufTy).Contents (Elt F))
    (w3 w4 : (⟨S128x128, .f32⟩ : BufTy).Contents (Elt F)) (b5 : (⟨S128, .f32⟩ : BufTy).Contents (Elt F))
    (w6 w7 : (⟨S128x128, .f32⟩ : BufTy).Contents (Elt F)) (b8 : (⟨S128, .f32⟩ : BufTy).Contents (Elt F)) :=
  layer (agg (h1 x e w3 w4 b5) e) (h1 x e w3 w4 b5) w6 w7 b8
def h3 (x : (⟨S50000x128, .f32⟩ : BufTy).Contents (Elt F)) (e : (⟨S2x800000, .i32⟩ : BufTy).Contents (Elt F))
    (w3 w4 : (⟨S128x128, .f32⟩ : BufTy).Contents (Elt F)) (b5 : (⟨S128, .f32⟩ : BufTy).Contents (Elt F))
    (w6 w7 : (⟨S128x128, .f32⟩ : BufTy).Contents (Elt F)) (b8 : (⟨S128, .f32⟩ : BufTy).Contents (Elt F))
    (w9 w10 : (⟨S128x128, .f32⟩ : BufTy).Contents (Elt F)) (b11 : (⟨S128, .f32⟩ : BufTy).Contents (Elt F)) :=
  layer (agg (h2 x e w3 w4 b5 w6 w7 b8) e) (h2 x e w3 w4 b5 w6 w7 b8) w9 w10 b11

theorem v24_eq (x0 : (⟨S50000x128, .f32⟩ : BufTy).Contents (Elt F)) (x1 : (⟨S2x800000, .i32⟩ : BufTy).Contents (Elt F))
    (x3 x4 : (⟨S128x128, .f32⟩ : BufTy).Contents (Elt F)) (x5 : (⟨S128, .f32⟩ : BufTy).Contents (Elt F)) :
    val_main_v24 (F := F) x0 x1 x3 x4 x5 = h1 x0 x1 x3 x4 x5 := rfl

theorem v41_eq (x0 : (⟨S50000x128, .f32⟩ : BufTy).Contents (Elt F)) (x1 : (⟨S2x800000, .i32⟩ : BufTy).Contents (Elt F))
    (x3 x4 : (⟨S128x128, .f32⟩ : BufTy).Contents (Elt F)) (x5 : (⟨S128, .f32⟩ : BufTy).Contents (Elt F))
    (x6 x7 : (⟨S128x128, .f32⟩ : BufTy).Contents (Elt F)) (x8 : (⟨S128, .f32⟩ : BufTy).Contents (Elt F)) :
    val_main_v41 (F := F) x0 x1 x3 x4 x5 x6 x7 x8 = h2 x0 x1 x3 x4 x5 x6 x7 x8 := rfl

theorem v58_eq (x0 : (⟨S50000x128, .f32⟩ : BufTy).Contents (Elt F)) (x1 : (⟨S2x800000, .i32⟩ : BufTy).Contents (Elt F))
    (x3 x4 : (⟨S128x128, .f32⟩ : BufTy).Contents (Elt F)) (x5 : (⟨S128, .f32⟩ : BufTy).Contents (Elt F))
    (x6 x7 : (⟨S128x128, .f32⟩ : BufTy).Contents (Elt F)) (x8 : (⟨S128, .f32⟩ : BufTy).Contents (Elt F))
    (x9 x10 : (⟨S128x128, .f32⟩ : BufTy).Contents (Elt F)) (x11 : (⟨S128, .f32⟩ : BufTy).Contents (Elt F)) :
    val_main_v58 (F := F) x0 x1 x3 x4 x5 x6 x7 x8 x9 x10 x11 = h3 x0 x1 x3 x4 x5 x6 x7 x8 x9 x10 x11 := rfl

/-- The pooled result is `pool` of the third layer's output. -/
theorem v69_eq (x0 : (⟨S50000x128, .f32⟩ : BufTy).Contents (Elt F)) (x1 : (⟨S2x800000, .i32⟩ : BufTy).Contents (Elt F))
    (x2 : (⟨S50000, .i32⟩ : BufTy).Contents (Elt F))
    (x3 x4 : (⟨S128x128, .f32⟩ : BufTy).Contents (Elt F)) (x5 : (⟨S128, .f32⟩ : BufTy).Contents (Elt F))
    (x6 x7 : (⟨S128x128, .f32⟩ : BufTy).Contents (Elt F)) (x8 : (⟨S128, .f32⟩ : BufTy).Contents (Elt F))
    (x9 x10 : (⟨S128x128, .f32⟩ : BufTy).Contents (Elt F)) (x11 : (⟨S128, .f32⟩ : BufTy).Contents (Elt F)) :
    val_main_v69 (F := F) x0 x1 x2 x3 x4 x5 x6 x7 x8 x9 x10 x11 = pool (h3 x0 x1 x3 x4 x5 x6 x7 x8 x9 x10 x11) x2 := rfl

/-! ## A layer at an entry -/

/-- Entry `(r, j)` of a layer's output is `GraphConv.entry` of row `r` of the aggregated and of the node features. -/
theorem layer_at (a h : (⟨S50000x128, .f32⟩ : BufTy).Contents (Elt Ideal)) (wrel wroot : (⟨S128x128, .f32⟩ : BufTy).Contents (Elt Ideal))
    (b : (⟨S128, .f32⟩ : BufTy).Contents (Elt Ideal)) (r : Fin 50000) (j : Fin 128) :
    layer (F := Ideal) a h wrel wroot b (ix2 r j)
      = GraphConv.entry (fun k => a (ix2 r k)) (fun k => h (ix2 r k)) wrel wroot b j := by
  have el : ∀ k : Fin 128, lidx_main_v19 (ix2 r j) k = ix2 r k := fun k => funext fun d => Fin.ext (by
    match d with
    | ⟨0, _⟩ => rfl
    | ⟨1, _⟩ => rfl)
  have er : ∀ k : Fin 128, ridx_main_v19 (ix2 r j) k = ix2 k j := fun k => funext fun d => Fin.ext (by
    match d with
    | ⟨0, _⟩ => rfl
    | ⟨1, _⟩ => rfl)
  have eb : idx_main_v21 (idx_main_v22 (ix2 r j)) = ix1 j := funext fun d => Fin.ext (by
    match d with
    | ⟨0, _⟩ => rfl)
  show max ((val_main_v19 (F := Ideal) a wrel (ix2 r j) + val_main_v19 (F := Ideal) h wroot (ix2 r j)) + val_main_v22 (F := Ideal) b (ix2 r j))
    (val_main_call0_v0 (F := Ideal) (ix2 r j)) = _
  rw [val_main_v19_apply, val_main_v19_apply, val_main_v22_apply, val_main_v21_apply, val_main_call0_v0_apply, val_main_call0_cst_apply]
  simp only [el, er, eb]
  rfl

end Cert.ReferenceIdeal.Stages

end
-- ==== Proof.KernelRegion0.lean ====
/-
  The first launch of the linear-and-ReLU kernel computes one dense layer.

  The launch walks ten grid points; point `t` loads rows `5000·t … 5000·t + 4999` of the aggregated features and
  of the node features, the two weight matrices and the bias whole, and writes back the same rows of the output.
  Entry `(p, q)` of what it writes is `GraphConv.entry` of row `p` of the two loaded blocks, which is row
  `5000·t + p` of the arrays; and that is entry `(5000·t + p, q)` of the reference's `layer` of the whole arrays.
  The ten blocks tile the output, so after the launch the output array IS `layer` of the arrays the launch found.
-/
import proofs.«172164_j18305150615818_1_alg».proof.Proof.KernelIdealFrameP
import proofs.«172164_j18305150615818_1_alg».proof.Proof.KernelPay
import proofs.«172164_j18305150615818_1_alg».proof.Proof.RefStages
import Idealize.ShloMosaic.Lib.Pipeline.Value

set_option maxRecDepth 16384

noncomputable section

namespace Cert.KernelIdeal.LayerValue

open Cert.KernelIdeal Cert.KernelIdeal.Gen Cert.KernelIdeal.GenP Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

namespace R0

theorem hz2 : (![0, 0] : Fin 2 → Nat) = fun _ => 0 := funext fun a => by fin_cases a <;> rfl
theorem hz1 : (![0] : Fin 1 → Nat) = fun _ => 0 := funext fun a => by fin_cases a; rfl

/-- Where each window's block sits at point `t`: the two feature windows and the output move together down the
    rows, one block per point; the weights and the bias stay at their one block. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 ∧ t.val < 10 :=
  (by decide +kernel : ∀ t : Fin grid0.N, _)

/-- Every row block is some point's. -/
theorem idx_onto : ∀ q0 : Fin 10, ∃ t : Fin cfg0.N, t.val = q0.val :=
  (by decide +kernel : ∀ q0 : Fin 10, ∃ t : Fin grid0.N, t.val = q0.val)

/-- The blocks a point loads, at their literal shapes. -/
abbrev blkA (c : Dev nD) (t : Fin cfg0.N) : Vec Ideal S5000x128 .f32 := iblk0 V c 0 t
abbrev blkH (c : Dev nD) (t : Fin cfg0.N) : Vec Ideal S5000x128 .f32 := iblk0 V c 1 t
abbrev blkWrel (c : Dev nD) (t : Fin cfg0.N) : Vec Ideal S128x128 .f32 := iblk0 V c 2 t
abbrev blkWroot (c : Dev nD) (t : Fin cfg0.N) : Vec Ideal S128x128 .f32 := iblk0 V c 3 t
abbrev blkB (c : Dev nD) (t : Fin cfg0.N) : Vec Ideal S128 .f32 := iblk0 V c 4 t

/-- The arrays the launch finds, at their literal shapes. -/
abbrev arrA (c : Dev nD) : Vec Ideal S50000x128 .f32 := V c main_v17
abbrev arrH (c : Dev nD) : Vec Ideal S50000x128 .f32 := V c main_arg0
abbrev arrWrel (c : Dev nD) : Vec Ideal S128x128 .f32 := V c main_arg3
abbrev arrWroot (c : Dev nD) : Vec Ideal S128x128 .f32 := V c main_arg4
abbrev arrB (c : Dev nD) : Vec Ideal S128 .f32 := V c main_arg5

/-- Row `p` of a feature block at point `t` is row `5000·t + p` of its array. -/
theorem blkA_at (c : Dev nD) (t : Fin cfg0.N) (p : Fin 5000) (k : Fin 128) (r : Fin 50000) (hr : r.val = t.val * 5000 + p.val) :
    blkA V c t (ix2 p k) = arrA V c (ix2 r k) := by
  obtain ⟨e0, e1, -⟩ := idx_facts t
  show V c main_v17 (((cfg0.win 0).blk t).view.emb (ix2 p k)) = V c main_v17 (ix2 r k)
  refine congrArg (V c main_v17) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

theorem blkH_at (c : Dev nD) (t : Fin cfg0.N) (p : Fin 5000) (k : Fin 128) (r : Fin 50000) (hr : r.val = t.val * 5000 + p.val) :
    blkH V c t (ix2 p k) = arrH V c (ix2 r k) := by
  obtain ⟨-, -, e0, e1, -⟩ := idx_facts t
  show V c main_arg0 (((cfg0.win 1).blk t).view.emb (ix2 p k)) = V c main_arg0 (ix2 r k)
  refine congrArg (V c main_arg0) (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

/-- The weights and the bias are loaded whole. -/
theorem blkWrel_eq (c : Dev nD) (t : Fin cfg0.N) : blkWrel V c t = arrWrel V c := by
  obtain ⟨-, -, -, -, e0, e1, -⟩ := idx_facts t
  funext y
  show V c main_arg3 (((cfg0.win 2).blk t).view.emb y) = V c main_arg3 y
  refine congrArg (V c main_arg3) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem blkWroot_eq (c : Dev nD) (t : Fin cfg0.N) : blkWroot V c t = arrWroot V c := by
  obtain ⟨-, -, -, -, -, -, e0, e1, -⟩ := idx_facts t
  funext y
  show V c main_arg4 (((cfg0.win 3).blk t).view.emb y) = V c main_arg4 y
  refine congrArg (V c main_arg4) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem blkB_eq (c : Dev nD) (t : Fin cfg0.N) : blkB V c t = arrB V c := by
  obtain ⟨-, -, -, -, -, -, -, -, e0, -⟩ := idx_facts t
  funext y
  show V c main_arg5 (((cfg0.win 4).blk t).view.emb y) = V c main_arg5 y
  refine congrArg (V c main_arg5) (funext fun a => Fin.ext ?_)
  match a with
  | ⟨0, _⟩ => show win0_4.index t (0 : Fin 1) * 128 + 1 * (y 0).val = (y 0).val; omega

/-- WHAT POINT `t` WRITES BACK is block `t` of the layer of the arrays the launch finds. -/
theorem flushed_eq (c : Dev nD) (t : Fin cfg0.N) :
    (dat0 V c).flushed 5 t = ((cfg0.win 5).blk t).view.read (Elt Ideal)
      (Cert.ReferenceIdeal.Stages.layer (F := Ideal) (arrA V c) (arrH V c) (arrWrel V c) (arrWroot V c) (arrB V c)) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S128x128) hz2, View.ld_unit_zero (S := S128) hz1]
  funext j
  obtain ⟨p, q, rfl⟩ : ∃ (p : Fin 5000) (q : Fin 128), j = ix2 p q := ⟨j 0, j 1, eq_ix2 j⟩
  obtain ⟨-, -, -, -, -, -, -, -, -, e0, e1, ht⟩ := idx_facts t
  have hp : p.val < 5000 := p.isLt
  have hemb : ((cfg0.win 5).blk t).view.emb (ix2 p q) = ix2 (⟨t.val * 5000 + p.val, by omega⟩ : Fin 50000) q := funext fun a => Fin.ext (by
    match a with
    | ⟨0, _⟩ => show win0_5.index t (0 : Fin 2) * 5000 + 1 * p.val = t.val * 5000 + p.val; omega
    | ⟨1, _⟩ => show win0_5.index t (1 : Fin 2) * 128 + 1 * q.val = q.val; omega)
  show k0_pay1 (F := Ideal) (blkA V c t) (blkH V c t) (blkWrel V c t) (blkWroot V c t) (blkB V c t) (ix2 p q)
    = Cert.ReferenceIdeal.Stages.layer (F := Ideal) (arrA V c) (arrH V c) (arrWrel V c) (arrWroot V c) (arrB V c) (((cfg0.win 5).blk t).view.emb (ix2 p q))
  rw [hemb, Cert.ReferenceIdeal.Stages.layer_at, pay0_at, blkWrel_eq, blkWroot_eq, blkB_eq]
  exact GraphConv.entry_congr (fun k => blkA_at V c t p k _ rfl) (fun k => blkH_at V c t p k _ rfl) _ _ _ q

/-- An index of the output array is in point `t`'s block iff its row is among that block's 5000 rows. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v18).slice (win0_5.rect t)).set ↔ _
  rw [View.set_slice_whole, Rect.mem_set_unit]
  exact Iff.rfl

/-- The ten blocks tile the output array. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto ⟨(i 0).val / 5000, by omega⟩
  have ht' : t.val = (i 0).val / 5000 := ht
  obtain ⟨-, -, -, -, -, -, -, -, -, e0, e1, -⟩ := idx_facts t
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE OUTPUT ARRAY after the launch is the layer of the arrays the launch finds. -/
theorem final (c : Dev nD) :
    (dat0 V c).arrAt 5 cfg0.N
      = Cert.ReferenceIdeal.Stages.layer (F := Ideal) (arrA V c) (arrH V c) (arrWrel V c) (arrWroot V c) (arrB V c) :=
  (dat0 V c).arrAt_eq_of_cover 5 _ (fun t _ => flushed_eq V c t) cover

end R0

end Cert.KernelIdeal.LayerValue

end
-- ==== Proof.KernelRegion1.lean ====
/-
  The second launch of the linear-and-ReLU kernel computes one dense layer.

  The launch walks ten grid points; point `t` loads rows `5000·t … 5000·t + 4999` of the aggregated features and
  of the node features, the two weight matrices and the bias whole, and writes back the same rows of the output.
  Entry `(p, q)` of what it writes is `GraphConv.entry` of row `p` of the two loaded blocks, which is row
  `5000·t + p` of the arrays; and that is entry `(5000·t + p, q)` of the reference's `layer` of the whole arrays.
  The ten blocks tile the output, so after the launch the output array IS `layer` of the arrays the launch found.
-/
import proofs.«172164_j18305150615818_1_alg».proof.Proof.KernelIdealFrameP
import proofs.«172164_j18305150615818_1_alg».proof.Proof.KernelPay
import proofs.«172164_j18305150615818_1_alg».proof.Proof.RefStages
import Idealize.ShloMosaic.Lib.Pipeline.Value

set_option maxRecDepth 16384

noncomputable section

namespace Cert.KernelIdeal.LayerValue

open Cert.KernelIdeal Cert.KernelIdeal.Gen Cert.KernelIdeal.GenP Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

namespace R1

theorem hz2 : (![0, 0] : Fin 2 → Nat) = fun _ => 0 := funext fun a => by fin_cases a <;> rfl
theorem hz1 : (![0] : Fin 1 → Nat) = fun _ => 0 := funext fun a => by fin_cases a; rfl

/-- Where each window's block sits at point `t`: the two feature windows and the output move together down the
    rows, one block per point; the weights and the bias stay at their one block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 ∧ t.val < 10 :=
  (by decide +kernel : ∀ t : Fin grid1.N, _)

/-- Every row block is some point's. -/
theorem idx_onto : ∀ q0 : Fin 10, ∃ t : Fin cfg1.N, t.val = q0.val :=
  (by decide +kernel : ∀ q0 : Fin 10, ∃ t : Fin grid1.N, t.val = q0.val)

/-- The blocks a point loads, at their literal shapes. -/
abbrev blkA (c : Dev nD) (t : Fin cfg1.N) : Vec Ideal S5000x128 .f32 := iblk1 V c 0 t
abbrev blkH (c : Dev nD) (t : Fin cfg1.N) : Vec Ideal S5000x128 .f32 := iblk1 V c 1 t
abbrev blkWrel (c : Dev nD) (t : Fin cfg1.N) : Vec Ideal S128x128 .f32 := iblk1 V c 2 t
abbrev blkWroot (c : Dev nD) (t : Fin cfg1.N) : Vec Ideal S128x128 .f32 := iblk1 V c 3 t
abbrev blkB (c : Dev nD) (t : Fin cfg1.N) : Vec Ideal S128 .f32 := iblk1 V c 4 t

/-- The arrays the launch finds, at their literal shapes. -/
abbrev arrA (c : Dev nD) : Vec Ideal S50000x128 .f32 := V c main_v28
abbrev arrH (c : Dev nD) : Vec Ideal S50000x128 .f32 := V c main_v18
abbrev arrWrel (c : Dev nD) : Vec Ideal S128x128 .f32 := V c main_arg6
abbrev arrWroot (c : Dev nD) : Vec Ideal S128x128 .f32 := V c main_arg7
abbrev arrB (c : Dev nD) : Vec Ideal S128 .f32 := V c main_arg8

/-- Row `p` of a feature block at point `t` is row `5000·t + p` of its array. -/
theorem blkA_at (c : Dev nD) (t : Fin cfg1.N) (p : Fin 5000) (k : Fin 128) (r : Fin 50000) (hr : r.val = t.val * 5000 + p.val) :
    blkA V c t (ix2 p k) = arrA V c (ix2 r k) := by
  obtain ⟨e0, e1, -⟩ := idx_facts t
  show V c main_v28 (((cfg1.win 0).blk t).view.emb (ix2 p k)) = V c main_v28 (ix2 r k)
  refine congrArg (V c main_v28) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

theorem blkH_at (c : Dev nD) (t : Fin cfg1.N) (p : Fin 5000) (k : Fin 128) (r : Fin 50000) (hr : r.val = t.val * 5000 + p.val) :
    blkH V c t (ix2 p k) = arrH V c (ix2 r k) := by
  obtain ⟨-, -, e0, e1, -⟩ := idx_facts t
  show V c main_v18 (((cfg1.win 1).blk t).view.emb (ix2 p k)) = V c main_v18 (ix2 r k)
  refine congrArg (V c main_v18) (funext fun a => Fin.ext ?_)
  match a with
  | ⟨0, _⟩ => show win1_1.index t (0 : Fin 2) * 5000 + 1 * p.val = r.val; omega
  | ⟨1, _⟩ => show win1_1.index t (1 : Fin 2) * 128 + 1 * k.val = k.val; omega

/-- The weights and the bias are loaded whole. -/
theorem blkWrel_eq (c : Dev nD) (t : Fin cfg1.N) : blkWrel V c t = arrWrel V c := by
  obtain ⟨-, -, -, -, e0, e1, -⟩ := idx_facts t
  funext y
  show V c main_arg6 (((cfg1.win 2).blk t).view.emb y) = V c main_arg6 y
  refine congrArg (V c main_arg6) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

theorem blkWroot_eq (c : Dev nD) (t : Fin cfg1.N) : blkWroot V c t = arrWroot V c := by
  obtain ⟨-, -, -, -, -, -, e0, e1, -⟩ := idx_facts t
  funext y
  show V c main_arg7 (((cfg1.win 3).blk t).view.emb y) = V c main_arg7 y
  refine congrArg (V c main_arg7) (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

theorem blkB_eq (c : Dev nD) (t : Fin cfg1.N) : blkB V c t = arrB V c := by
  obtain ⟨-, -, -, -, -, -, -, -, e0, -⟩ := idx_facts t
  funext y
  show V c main_arg8 (((cfg1.win 4).blk t).view.emb y) = V c main_arg8 y
  refine congrArg (V c main_arg8) (funext fun a => Fin.ext ?_)
  match a with
  | ⟨0, _⟩ => show win1_4.index t (0 : Fin 1) * 128 + 1 * (y 0).val = (y 0).val; omega

/-- WHAT POINT `t` WRITES BACK is block `t` of the layer of the arrays the launch finds. -/
theorem flushed_eq (c : Dev nD) (t : Fin cfg1.N) :
    (dat1 V c).flushed 5 t = ((cfg1.win 5).blk t).view.read (Elt Ideal)
      (Cert.ReferenceIdeal.Stages.layer (F := Ideal) (arrA V c) (arrH V c) (arrWrel V c) (arrWroot V c) (arrB V c)) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128x128) hz2, View.ld_unit_zero (S := S128) hz1]
  funext j
  obtain ⟨p, q, rfl⟩ : ∃ (p : Fin 5000) (q : Fin 128), j = ix2 p q := ⟨j 0, j 1, eq_ix2 j⟩
  obtain ⟨-, -, -, -, -, -, -, -, -, e0, e1, ht⟩ := idx_facts t
  have hp : p.val < 5000 := p.isLt
  have hemb : ((cfg1.win 5).blk t).view.emb (ix2 p q) = ix2 (⟨t.val * 5000 + p.val, by omega⟩ : Fin 50000) q := funext fun a => Fin.ext (by
    match a with
    | ⟨0, _⟩ => show win1_5.index t (0 : Fin 2) * 5000 + 1 * p.val = t.val * 5000 + p.val; omega
    | ⟨1, _⟩ => show win1_5.index t (1 : Fin 2) * 128 + 1 * q.val = q.val; omega)
  show k1_pay1 (F := Ideal) (blkA V c t) (blkH V c t) (blkWrel V c t) (blkWroot V c t) (blkB V c t) (ix2 p q)
    = Cert.ReferenceIdeal.Stages.layer (F := Ideal) (arrA V c) (arrH V c) (arrWrel V c) (arrWroot V c) (arrB V c) (((cfg1.win 5).blk t).view.emb (ix2 p q))
  rw [hemb, Cert.ReferenceIdeal.Stages.layer_at, pay1_at, blkWrel_eq, blkWroot_eq, blkB_eq]
  exact GraphConv.entry_congr (fun k => blkA_at V c t p k _ rfl) (fun k => blkH_at V c t p k _ rfl) _ _ _ q

/-- An index of the output array is in point `t`'s block iff its row is among that block's 5000 rows. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v29).slice (win1_5.rect t)).set ↔ _
  rw [View.set_slice_whole, Rect.mem_set_unit]
  exact Iff.rfl

/-- The ten blocks tile the output array. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto ⟨(i 0).val / 5000, by omega⟩
  have ht' : t.val = (i 0).val / 5000 := ht
  obtain ⟨-, -, -, -, -, -, -, -, -, e0, e1, -⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE OUTPUT ARRAY after the launch is the layer of the arrays the launch finds. -/
theorem final (c : Dev nD) :
    (dat1 V c).arrAt 5 cfg1.N
      = Cert.ReferenceIdeal.Stages.layer (F := Ideal) (arrA V c) (arrH V c) (arrWrel V c) (arrWroot V c) (arrB V c) :=
  (dat1 V c).arrAt_eq_of_cover 5 _ (fun t _ => flushed_eq V c t) cover

end R1

end Cert.KernelIdeal.LayerValue

end
-- ==== Proof.KernelRegion2.lean ====
/-
  The third launch of the linear-and-ReLU kernel computes one dense layer.

  The launch walks ten grid points; point `t` loads rows `5000·t … 5000·t + 4999` of the aggregated features and
  of the node features, the two weight matrices and the bias whole, and writes back the same rows of the output.
  Entry `(p, q)` of what it writes is `GraphConv.entry` of row `p` of the two loaded blocks, which is row
  `5000·t + p` of the arrays; and that is entry `(5000·t + p, q)` of the reference's `layer` of the whole arrays.
  The ten blocks tile the output, so after the launch the output array IS `layer` of the arrays the launch found.
-/
import proofs.«172164_j18305150615818_1_alg».proof.Proof.KernelIdealFrameP
import proofs.«172164_j18305150615818_1_alg».proof.Proof.KernelPay
import proofs.«172164_j18305150615818_1_alg».proof.Proof.RefStages
import Idealize.ShloMosaic.Lib.Pipeline.Value

set_option maxRecDepth 16384

noncomputable section

namespace Cert.KernelIdeal.LayerValue

open Cert.KernelIdeal Cert.KernelIdeal.Gen Cert.KernelIdeal.GenP Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

namespace R2

theorem hz2 : (![0, 0] : Fin 2 → Nat) = fun _ => 0 := funext fun a => by fin_cases a <;> rfl
theorem hz1 : (![0] : Fin 1 → Nat) = fun _ => 0 := funext fun a => by fin_cases a; rfl

/-- Where each window's block sits at point `t`: the two feature windows and the output move together down the
    rows, one block per point; the weights and the bias stay at their one block. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 ∧ t.val < 10 :=
  (by decide +kernel : ∀ t : Fin grid2.N, _)

/-- Every row block is some point's. -/
theorem idx_onto : ∀ q0 : Fin 10, ∃ t : Fin cfg2.N, t.val = q0.val :=
  (by decide +kernel : ∀ q0 : Fin 10, ∃ t : Fin grid2.N, t.val = q0.val)

/-- The blocks a point loads, at their literal shapes. -/
abbrev blkA (c : Dev nD) (t : Fin cfg2.N) : Vec Ideal S5000x128 .f32 := iblk2 V c 0 t
abbrev blkH (c : Dev nD) (t : Fin cfg2.N) : Vec Ideal S5000x128 .f32 := iblk2 V c 1 t
abbrev blkWrel (c : Dev nD) (t : Fin cfg2.N) : Vec Ideal S128x128 .f32 := iblk2 V c 2 t
abbrev blkWroot (c : Dev nD) (t : Fin cfg2.N) : Vec Ideal S128x128 .f32 := iblk2 V c 3 t
abbrev blkB (c : Dev nD) (t : Fin cfg2.N) : Vec Ideal S128 .f32 := iblk2 V c 4 t

/-- The arrays the launch finds, at their literal shapes. -/
abbrev arrA (c : Dev nD) : Vec Ideal S50000x128 .f32 := V c main_v39
abbrev arrH (c : Dev nD) : Vec Ideal S50000x128 .f32 := V c main_v29
abbrev arrWrel (c : Dev nD) : Vec Ideal S128x128 .f32 := V c main_arg9
abbrev arrWroot (c : Dev nD) : Vec Ideal S128x128 .f32 := V c main_arg10
abbrev arrB (c : Dev nD) : Vec Ideal S128 .f32 := V c main_arg11

/-- Row `p` of a feature block at point `t` is row `5000·t + p` of its array. -/
theorem blkA_at (c : Dev nD) (t : Fin cfg2.N) (p : Fin 5000) (k : Fin 128) (r : Fin 50000) (hr : r.val = t.val * 5000 + p.val) :
    blkA V c t (ix2 p k) = arrA V c (ix2 r k) := by
  obtain ⟨e0, e1, -⟩ := idx_facts t
  show V c main_v39 (((cfg2.win 0).blk t).view.emb (ix2 p k)) = V c main_v39 (ix2 r k)
  refine congrArg (V c main_v39) (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

theorem blkH_at (c : Dev nD) (t : Fin cfg2.N) (p : Fin 5000) (k : Fin 128) (r : Fin 50000) (hr : r.val = t.val * 5000 + p.val) :
    blkH V c t (ix2 p k) = arrH V c (ix2 r k) := by
  obtain ⟨-, -, e0, e1, -⟩ := idx_facts t
  show V c main_v29 (((cfg2.win 1).blk t).view.emb (ix2 p k)) = V c main_v29 (ix2 r k)
  refine congrArg (V c main_v29) (funext fun a => Fin.ext ?_)
  match a with
  | ⟨0, _⟩ => show win2_1.index t (0 : Fin 2) * 5000 + 1 * p.val = r.val; omega
  | ⟨1, _⟩ => show win2_1.index t (1 : Fin 2) * 128 + 1 * k.val = k.val; omega

/-- The weights and the bias are loaded whole. -/
theorem blkWrel_eq (c : Dev nD) (t : Fin cfg2.N) : blkWrel V c t = arrWrel V c := by
  obtain ⟨-, -, -, -, e0, e1, -⟩ := idx_facts t
  funext y
  show V c main_arg9 (((cfg2.win 2).blk t).view.emb y) = V c main_arg9 y
  refine congrArg (V c main_arg9) (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

theorem blkWroot_eq (c : Dev nD) (t : Fin cfg2.N) : blkWroot V c t = arrWroot V c := by
  obtain ⟨-, -, -, -, -, -, e0, e1, -⟩ := idx_facts t
  funext y
  show V c main_arg10 (((cfg2.win 3).blk t).view.emb y) = V c main_arg10 y
  refine congrArg (V c main_arg10) (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

theorem blkB_eq (c : Dev nD) (t : Fin cfg2.N) : blkB V c t = arrB V c := by
  obtain ⟨-, -, -, -, -, -, -, -, e0, -⟩ := idx_facts t
  funext y
  show V c main_arg11 (((cfg2.win 4).blk t).view.emb y) = V c main_arg11 y
  refine congrArg (V c main_arg11) (funext fun a => Fin.ext ?_)
  match a with
  | ⟨0, _⟩ => show win2_4.index t (0 : Fin 1) * 128 + 1 * (y 0).val = (y 0).val; omega

/-- WHAT POINT `t` WRITES BACK is block `t` of the layer of the arrays the launch finds. -/
theorem flushed_eq (c : Dev nD) (t : Fin cfg2.N) :
    (dat2 V c).flushed 5 t = ((cfg2.win 5).blk t).view.read (Elt Ideal)
      (Cert.ReferenceIdeal.Stages.layer (F := Ideal) (arrA V c) (arrH V c) (arrWrel V c) (arrWroot V c) (arrB V c)) := by
  show (cfg2.win 5).cut (grid2.coords t) ((dat2 V c).after 5 t) = _
  rw [after2_5]
  unfold out2_5
  rw [View.canon_unit_zero hz2]
  simp only [View.ld_unit_zero (S := S5000x128) hz2, View.ld_unit_zero (S := S128x128) hz2, View.ld_unit_zero (S := S128) hz1]
  funext j
  obtain ⟨p, q, rfl⟩ : ∃ (p : Fin 5000) (q : Fin 128), j = ix2 p q := ⟨j 0, j 1, eq_ix2 j⟩
  obtain ⟨-, -, -, -, -, -, -, -, -, e0, e1, ht⟩ := idx_facts t
  have hp : p.val < 5000 := p.isLt
  have hemb : ((cfg2.win 5).blk t).view.emb (ix2 p q) = ix2 (⟨t.val * 5000 + p.val, by omega⟩ : Fin 50000) q := funext fun a => Fin.ext (by
    match a with
    | ⟨0, _⟩ => show win2_5.index t (0 : Fin 2) * 5000 + 1 * p.val = t.val * 5000 + p.val; omega
    | ⟨1, _⟩ => show win2_5.index t (1 : Fin 2) * 128 + 1 * q.val = q.val; omega)
  show k2_pay1 (F := Ideal) (blkA V c t) (blkH V c t) (blkWrel V c t) (blkWroot V c t) (blkB V c t) (ix2 p q)
    = Cert.ReferenceIdeal.Stages.layer (F := Ideal) (arrA V c) (arrH V c) (arrWrel V c) (arrWroot V c) (arrB V c) (((cfg2.win 5).blk t).view.emb (ix2 p q))
  rw [hemb, Cert.ReferenceIdeal.Stages.layer_at, pay2_at, blkWrel_eq, blkWroot_eq, blkB_eq]
  exact GraphConv.entry_congr (fun k => blkA_at V c t p k _ rfl) (fun k => blkH_at V c t p k _ rfl) _ _ _ q

/-- An index of the output array is in point `t`'s block iff its row is among that block's 5000 rows. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v40).slice (win2_5.rect t)).set ↔ _
  rw [View.set_slice_whole, Rect.mem_set_unit]
  exact Iff.rfl

/-- The ten blocks tile the output array. -/
theorem cover (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := idx_onto ⟨(i 0).val / 5000, by omega⟩
  have ht' : t.val = (i 0).val / 5000 := ht
  obtain ⟨-, -, -, -, -, -, -, -, -, e0, e1, -⟩ := idx_facts t
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- THE OUTPUT ARRAY after the launch is the layer of the arrays the launch finds. -/
theorem final (c : Dev nD) :
    (dat2 V c).arrAt 5 cfg2.N
      = Cert.ReferenceIdeal.Stages.layer (F := Ideal) (arrA V c) (arrH V c) (arrWrel V c) (arrWroot V c) (arrB V c) :=
  (dat2 V c).arrAt_eq_of_cover 5 _ (fun t _ => flushed_eq V c t) cover

end R2

end Cert.KernelIdeal.LayerValue

end
-- ==== Proof.KernelHost.lean ====
/-
  The kernel program's host operations, stretch by stretch, as functions of what they find.

  Between its three launches the kernel program runs the same gathers, scatters and divisions as the reference.
  Each stretch of host operations is read here from ARBITRARY contents `V` of the buffers, for any float family:
  the buffer a stretch computes is the reference's stage of the buffers it reads, and a buffer no operation of
  the stretch writes keeps its contents. Which contents each stretch really starts from is the next module's business.
-/
import proofs.«172164_j18305150615818_1_alg».proof.Proof.KernelIdealLaunchP
import proofs.«172164_j18305150615818_1_alg».proof.Proof.RefStages
import Idealize.ShloMosaic.Lib.StableHlo.Run

set_option maxRecDepth 16384

noncomputable section

namespace Cert.KernelIdeal.LayerValue.Host

open Cert.KernelIdeal Cert.KernelIdeal.Gen Cert.KernelIdeal.GenP Idealize.ShloMosaic Idealize.ShloMosaic.TcCoe Idealize.ShloMosaic.StableHlo

variable {F : FTy → Type} [FloatOps F] (V : Valuation τ sig (Elt F))

/-- A buffer that no operation of the stretch writes keeps its contents: every operation's one written reference
    differs from it. -/
local macro "kept_through " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide))))

/-! ## Before the first launch: the edge list's rows, the first aggregation, the column shares -/

theorem s0_v1 : after hostOps0 V (Proc.devRef .tc main_v1) = Cert.ReferenceIdeal.Read.val_main_v1 (F := F) (V (Proc.devRef .tc main_arg1)) := by
  dsimp only [hostOps0]; after_results; rfl
theorem s0_v3 : after hostOps0 V (Proc.devRef .tc main_v3) = Cert.ReferenceIdeal.Read.val_main_v3 (F := F) (V (Proc.devRef .tc main_arg1)) := by
  dsimp only [hostOps0]; after_results; rfl
theorem s0_v7 : after hostOps0 V (Proc.devRef .tc main_v7) = Cert.ReferenceIdeal.Stages.colshare (F := F) (V (Proc.devRef .tc main_arg0)) := by
  dsimp only [hostOps0]; after_results; rfl
set_option maxHeartbeats 1000000 in
theorem s0_v17 : after hostOps0 V (Proc.devRef .tc main_v17) = Cert.ReferenceIdeal.Stages.agg (F := F) (V (Proc.devRef .tc main_arg0)) (V (Proc.devRef .tc main_arg1)) := by
  dsimp only [hostOps0]; after_results_simp; rfl
theorem s0_arg0 : after hostOps0 V (Proc.devRef .tc main_arg0) = V (Proc.devRef .tc main_arg0) := by kept_through hostOps0
theorem s0_arg1 : after hostOps0 V (Proc.devRef .tc main_arg1) = V (Proc.devRef .tc main_arg1) := by kept_through hostOps0
theorem s0_arg2 : after hostOps0 V (Proc.devRef .tc main_arg2) = V (Proc.devRef .tc main_arg2) := by kept_through hostOps0
theorem s0_arg3 : after hostOps0 V (Proc.devRef .tc main_arg3) = V (Proc.devRef .tc main_arg3) := by kept_through hostOps0
theorem s0_arg4 : after hostOps0 V (Proc.devRef .tc main_arg4) = V (Proc.devRef .tc main_arg4) := by kept_through hostOps0
theorem s0_arg5 : after hostOps0 V (Proc.devRef .tc main_arg5) = V (Proc.devRef .tc main_arg5) := by kept_through hostOps0
theorem s0_arg6 : after hostOps0 V (Proc.devRef .tc main_arg6) = V (Proc.devRef .tc main_arg6) := by kept_through hostOps0
theorem s0_arg7 : after hostOps0 V (Proc.devRef .tc main_arg7) = V (Proc.devRef .tc main_arg7) := by kept_through hostOps0
theorem s0_arg8 : after hostOps0 V (Proc.devRef .tc main_arg8) = V (Proc.devRef .tc main_arg8) := by kept_through hostOps0
theorem s0_arg9 : after hostOps0 V (Proc.devRef .tc main_arg9) = V (Proc.devRef .tc main_arg9) := by kept_through hostOps0
theorem s0_arg10 : after hostOps0 V (Proc.devRef .tc main_arg10) = V (Proc.devRef .tc main_arg10) := by kept_through hostOps0
theorem s0_arg11 : after hostOps0 V (Proc.devRef .tc main_arg11) = V (Proc.devRef .tc main_arg11) := by kept_through hostOps0

/-! ## Between the first and the second launch: the second aggregation -/

theorem s1_v28 : after hostOps1 V (Proc.devRef .tc main_v28)
    = Cert.ReferenceIdeal.Stages.aggAt (F := F) (V (Proc.devRef .tc main_v18)) (Cert.ReferenceIdeal.Stages.srcOf (V (Proc.devRef .tc main_v1))) (Cert.ReferenceIdeal.Stages.dstOf (V (Proc.devRef .tc main_v3))) := by
  dsimp only [hostOps1]; after_results; rfl
theorem s1_v18 : after hostOps1 V (Proc.devRef .tc main_v18) = V (Proc.devRef .tc main_v18) := by kept_through hostOps1
theorem s1_v1 : after hostOps1 V (Proc.devRef .tc main_v1) = V (Proc.devRef .tc main_v1) := by kept_through hostOps1
theorem s1_v3 : after hostOps1 V (Proc.devRef .tc main_v3) = V (Proc.devRef .tc main_v3) := by kept_through hostOps1
theorem s1_v7 : after hostOps1 V (Proc.devRef .tc main_v7) = V (Proc.devRef .tc main_v7) := by kept_through hostOps1
theorem s1_arg2 : after hostOps1 V (Proc.devRef .tc main_arg2) = V (Proc.devRef .tc main_arg2) := by kept_through hostOps1
theorem s1_arg6 : after hostOps1 V (Proc.devRef .tc main_arg6) = V (Proc.devRef .tc main_arg6) := by kept_through hostOps1
theorem s1_arg7 : after hostOps1 V (Proc.devRef .tc main_arg7) = V (Proc.devRef .tc main_arg7) := by kept_through hostOps1
theorem s1_arg8 : after hostOps1 V (Proc.devRef .tc main_arg8) = V (Proc.devRef .tc main_arg8) := by kept_through hostOps1
theorem s1_arg9 : after hostOps1 V (Proc.devRef .tc main_arg9) = V (Proc.devRef .tc main_arg9) := by kept_through hostOps1
theorem s1_arg10 : after hostOps1 V (Proc.devRef .tc main_arg10) = V (Proc.devRef .tc main_arg10) := by kept_through hostOps1
theorem s1_arg11 : after hostOps1 V (Proc.devRef .tc main_arg11) = V (Proc.devRef .tc main_arg11) := by kept_through hostOps1

/-! ## Between the second and the third launch: the third aggregation -/

theorem s2_v39 : after hostOps2 V (Proc.devRef .tc main_v39)
    = Cert.ReferenceIdeal.Stages.aggAt (F := F) (V (Proc.devRef .tc main_v29)) (Cert.ReferenceIdeal.Stages.srcOf (V (Proc.devRef .tc main_v1))) (Cert.ReferenceIdeal.Stages.dstOf (V (Proc.devRef .tc main_v3))) := by
  dsimp only [hostOps2]; after_results; rfl
theorem s2_v29 : after hostOps2 V (Proc.devRef .tc main_v29) = V (Proc.devRef .tc main_v29) := by kept_through hostOps2
theorem s2_v7 : after hostOps2 V (Proc.devRef .tc main_v7) = V (Proc.devRef .tc main_v7) := by kept_through hostOps2
theorem s2_arg2 : after hostOps2 V (Proc.devRef .tc main_arg2) = V (Proc.devRef .tc main_arg2) := by kept_through hostOps2
theorem s2_arg9 : after hostOps2 V (Proc.devRef .tc main_arg9) = V (Proc.devRef .tc main_arg9) := by kept_through hostOps2
theorem s2_arg10 : after hostOps2 V (Proc.devRef .tc main_arg10) = V (Proc.devRef .tc main_arg10) := by kept_through hostOps2
theorem s2_arg11 : after hostOps2 V (Proc.devRef .tc main_arg11) = V (Proc.devRef .tc main_arg11) := by kept_through hostOps2

/-! ## After the third launch: the pooling -/

theorem s3_v51 : after hostOps3 V (Proc.devRef .tc main_v51)
    = Cert.ReferenceIdeal.Stages.pool (F := F) (V (Proc.devRef .tc main_v40)) (V (Proc.devRef .tc main_arg2)) := by
  dsimp only [hostOps3]; after_results; rfl
theorem s3_v7 : after hostOps3 V (Proc.devRef .tc main_v7) = V (Proc.devRef .tc main_v7) := by kept_through hostOps3

end Cert.KernelIdeal.LayerValue.Host

end
-- ==== Proof.KernelValue.lean ====
/-
  The kernel program's two results as functions of its arguments.

  The buffer contents at the seven boundaries of the kernel program — before and after each of its three launches,
  and at the end — are followed here at the buffers that matter: the edge list's two rows, the column shares, each
  layer's input and output, the weights and biases not yet used, the graph assignment. Each host stretch is the
  reference's stage of what it reads; each launch leaves in its output array the reference's `layer` of the arrays it
  finds, and every other buffer alone. At the end the first result is the pooling of the third layer's output and
  the second the column shares of `x`: the same compositions the reference program computes.
-/
import proofs.«172164_j18305150615818_1_alg».proof.Proof.KernelRegion0
import proofs.«172164_j18305150615818_1_alg».proof.Proof.KernelRegion1
import proofs.«172164_j18305150615818_1_alg».proof.Proof.KernelRegion2
import proofs.«172164_j18305150615818_1_alg».proof.Proof.KernelHost
import proofs.«172164_j18305150615818_1_alg».proof.Proof.KernelRun

set_option maxRecDepth 16384

noncomputable section

namespace Cert.KernelIdeal.LayerValue

open Cert.KernelIdeal Cert.KernelIdeal.Gen Cert.KernelIdeal.GenP Idealize.ShloMosaic Idealize.ShloMosaic.TcCoe
open Idealize.SL Idealize.SL.Sem

variable (m : (ℓ : Loc nD τ sig) → Buf (Elt Ideal) ℓ) (ρ : Dev nD → PrngReg) (c : Dev nD)

/-! ## At the first launch's entry -/

theorem w1_v1 : W1 m ρ c (Proc.devRef .tc main_v1) = Cert.ReferenceIdeal.Read.val_main_v1 (F := Ideal) (m ((c : Thread nD τ).loc main_arg1)) := Host.s0_v1 (W0 m ρ c)
theorem w1_v3 : W1 m ρ c (Proc.devRef .tc main_v3) = Cert.ReferenceIdeal.Read.val_main_v3 (F := Ideal) (m ((c : Thread nD τ).loc main_arg1)) := Host.s0_v3 (W0 m ρ c)
theorem w1_v7 : W1 m ρ c (Proc.devRef .tc main_v7) = Cert.ReferenceIdeal.Stages.colshare (F := Ideal) (m ((c : Thread nD τ).loc main_arg0)) := Host.s0_v7 (W0 m ρ c)
theorem w1_v17 : W1 m ρ c (Proc.devRef .tc main_v17) = Cert.ReferenceIdeal.Stages.agg (F := Ideal) (m ((c : Thread nD τ).loc main_arg0)) (m ((c : Thread nD τ).loc main_arg1)) := Host.s0_v17 (W0 m ρ c)
theorem w1_arg0 : W1 m ρ c (Proc.devRef .tc main_arg0) = m ((c : Thread nD τ).loc main_arg0) := Host.s0_arg0 (W0 m ρ c)
theorem w1_arg2 : W1 m ρ c (Proc.devRef .tc main_arg2) = m ((c : Thread nD τ).loc main_arg2) := Host.s0_arg2 (W0 m ρ c)
theorem w1_arg3 : W1 m ρ c (Proc.devRef .tc main_arg3) = m ((c : Thread nD τ).loc main_arg3) := Host.s0_arg3 (W0 m ρ c)
theorem w1_arg4 : W1 m ρ c (Proc.devRef .tc main_arg4) = m ((c : Thread nD τ).loc main_arg4) := Host.s0_arg4 (W0 m ρ c)
theorem w1_arg5 : W1 m ρ c (Proc.devRef .tc main_arg5) = m ((c : Thread nD τ).loc main_arg5) := Host.s0_arg5 (W0 m ρ c)
theorem w1_arg6 : W1 m ρ c (Proc.devRef .tc main_arg6) = m ((c : Thread nD τ).loc main_arg6) := Host.s0_arg6 (W0 m ρ c)
theorem w1_arg7 : W1 m ρ c (Proc.devRef .tc main_arg7) = m ((c : Thread nD τ).loc main_arg7) := Host.s0_arg7 (W0 m ρ c)
theorem w1_arg8 : W1 m ρ c (Proc.devRef .tc main_arg8) = m ((c : Thread nD τ).loc main_arg8) := Host.s0_arg8 (W0 m ρ c)
theorem w1_arg9 : W1 m ρ c (Proc.devRef .tc main_arg9) = m ((c : Thread nD τ).loc main_arg9) := Host.s0_arg9 (W0 m ρ c)
theorem w1_arg10 : W1 m ρ c (Proc.devRef .tc main_arg10) = m ((c : Thread nD τ).loc main_arg10) := Host.s0_arg10 (W0 m ρ c)
theorem w1_arg11 : W1 m ρ c (Proc.devRef .tc main_arg11) = m ((c : Thread nD τ).loc main_arg11) := Host.s0_arg11 (W0 m ρ c)

/-! ## At the first launch's exit: the first layer's output -/

theorem w2_v18 : W2 m ρ c (Proc.devRef .tc main_v18) = Cert.ReferenceIdeal.Stages.h1 (m ((c : Thread nD τ).loc main_arg0)) (m ((c : Thread nD τ).loc main_arg1)) (m ((c : Thread nD τ).loc main_arg3)) (m ((c : Thread nD τ).loc main_arg4)) (m ((c : Thread nD τ).loc main_arg5)) := by
  refine (W2_arr m ρ c 5).trans ((R0.final (V1 m ρ) c).trans ?_)
  show Cert.ReferenceIdeal.Stages.layer (F := Ideal) (W1 m ρ c (Proc.devRef .tc main_v17)) (W1 m ρ c (Proc.devRef .tc main_arg0)) (W1 m ρ c (Proc.devRef .tc main_arg3)) (W1 m ρ c (Proc.devRef .tc main_arg4)) (W1 m ρ c (Proc.devRef .tc main_arg5)) = _
  rw [w1_v17, w1_arg0, w1_arg3, w1_arg4, w1_arg5]
  rfl
theorem w2_v1 : W2 m ρ c (Proc.devRef .tc main_v1) = Cert.ReferenceIdeal.Read.val_main_v1 (F := Ideal) (m ((c : Thread nD τ).loc main_arg1)) := (W2_of_ne m ρ c main_v1 (by decide)).trans (w1_v1 m ρ c)
theorem w2_v3 : W2 m ρ c (Proc.devRef .tc main_v3) = Cert.ReferenceIdeal.Read.val_main_v3 (F := Ideal) (m ((c : Thread nD τ).loc main_arg1)) := (W2_of_ne m ρ c main_v3 (by decide)).trans (w1_v3 m ρ c)
theorem w2_v7 : W2 m ρ c (Proc.devRef .tc main_v7) = Cert.ReferenceIdeal.Stages.colshare (F := Ideal) (m ((c : Thread nD τ).loc main_arg0)) := (W2_of_ne m ρ c main_v7 (by decide)).trans (w1_v7 m ρ c)
theorem w2_arg2 : W2 m ρ c (Proc.devRef .tc main_arg2) = m ((c : Thread nD τ).loc main_arg2) := (W2_of_ne m ρ c main_arg2 (by decide)).trans (w1_arg2 m ρ c)
theorem w2_arg6 : W2 m ρ c (Proc.devRef .tc main_arg6) = m ((c : Thread nD τ).loc main_arg6) := (W2_of_ne m ρ c main_arg6 (by decide)).trans (w1_arg6 m ρ c)
theorem w2_arg7 : W2 m ρ c (Proc.devRef .tc main_arg7) = m ((c : Thread nD τ).loc main_arg7) := (W2_of_ne m ρ c main_arg7 (by decide)).trans (w1_arg7 m ρ c)
theorem w2_arg8 : W2 m ρ c (Proc.devRef .tc main_arg8) = m ((c : Thread nD τ).loc main_arg8) := (W2_of_ne m ρ c main_arg8 (by decide)).trans (w1_arg8 m ρ c)
theorem w2_arg9 : W2 m ρ c (Proc.devRef .tc main_arg9) = m ((c : Thread nD τ).loc main_arg9) := (W2_of_ne m ρ c main_arg9 (by decide)).trans (w1_arg9 m ρ c)
theorem w2_arg10 : W2 m ρ c (Proc.devRef .tc main_arg10) = m ((c : Thread nD τ).loc main_arg10) := (W2_of_ne m ρ c main_arg10 (by decide)).trans (w1_arg10 m ρ c)
theorem w2_arg11 : W2 m ρ c (Proc.devRef .tc main_arg11) = m ((c : Thread nD τ).loc main_arg11) := (W2_of_ne m ρ c main_arg11 (by decide)).trans (w1_arg11 m ρ c)

/-! ## At the second launch's entry: the second aggregation -/

theorem w3_v28 : W3 m ρ c (Proc.devRef .tc main_v28) = Cert.ReferenceIdeal.Stages.agg (F := Ideal) (Cert.ReferenceIdeal.Stages.h1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) := by
  refine (Host.s1_v28 (W2 m ρ c)).trans ?_
  rw [w2_v18, w2_v1, w2_v3]
  exact (Cert.ReferenceIdeal.Stages.agg_eq _ _).symm
theorem w3_v18 : W3 m ρ c (Proc.devRef .tc main_v18) = Cert.ReferenceIdeal.Stages.h1 (m ((c : Thread nD τ).loc main_arg0)) (m ((c : Thread nD τ).loc main_arg1)) (m ((c : Thread nD τ).loc main_arg3)) (m ((c : Thread nD τ).loc main_arg4)) (m ((c : Thread nD τ).loc main_arg5)) := (Host.s1_v18 (W2 m ρ c)).trans (w2_v18 m ρ c)
theorem w3_v1 : W3 m ρ c (Proc.devRef .tc main_v1) = Cert.ReferenceIdeal.Read.val_main_v1 (F := Ideal) (m ((c : Thread nD τ).loc main_arg1)) := (Host.s1_v1 (W2 m ρ c)).trans (w2_v1 m ρ c)
theorem w3_v3 : W3 m ρ c (Proc.devRef .tc main_v3) = Cert.ReferenceIdeal.Read.val_main_v3 (F := Ideal) (m ((c : Thread nD τ).loc main_arg1)) := (Host.s1_v3 (W2 m ρ c)).trans (w2_v3 m ρ c)
theorem w3_v7 : W3 m ρ c (Proc.devRef .tc main_v7) = Cert.ReferenceIdeal.Stages.colshare (F := Ideal) (m ((c : Thread nD τ).loc main_arg0)) := (Host.s1_v7 (W2 m ρ c)).trans (w2_v7 m ρ c)
theorem w3_arg2 : W3 m ρ c (Proc.devRef .tc main_arg2) = m ((c : Thread nD τ).loc main_arg2) := (Host.s1_arg2 (W2 m ρ c)).trans (w2_arg2 m ρ c)
theorem w3_arg6 : W3 m ρ c (Proc.devRef .tc main_arg6) = m ((c : Thread nD τ).loc main_arg6) := (Host.s1_arg6 (W2 m ρ c)).trans (w2_arg6 m ρ c)
theorem w3_arg7 : W3 m ρ c (Proc.devRef .tc main_arg7) = m ((c : Thread nD τ).loc main_arg7) := (Host.s1_arg7 (W2 m ρ c)).trans (w2_arg7 m ρ c)
theorem w3_arg8 : W3 m ρ c (Proc.devRef .tc main_arg8) = m ((c : Thread nD τ).loc main_arg8) := (Host.s1_arg8 (W2 m ρ c)).trans (w2_arg8 m ρ c)
theorem w3_arg9 : W3 m ρ c (Proc.devRef .tc main_arg9) = m ((c : Thread nD τ).loc main_arg9) := (Host.s1_arg9 (W2 m ρ c)).trans (w2_arg9 m ρ c)
theorem w3_arg10 : W3 m ρ c (Proc.devRef .tc main_arg10) = m ((c : Thread nD τ).loc main_arg10) := (Host.s1_arg10 (W2 m ρ c)).trans (w2_arg10 m ρ c)
theorem w3_arg11 : W3 m ρ c (Proc.devRef .tc main_arg11) = m ((c : Thread nD τ).loc main_arg11) := (Host.s1_arg11 (W2 m ρ c)).trans (w2_arg11 m ρ c)

/-! ## At the second launch's exit: the second layer's output -/

theorem w4_v29 : W4 m ρ c (Proc.devRef .tc main_v29) = Cert.ReferenceIdeal.Stages.h2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 5).trans ((R1.final (V3 m ρ) c).trans ?_)
  show Cert.ReferenceIdeal.Stages.layer (F := Ideal) (W3 m ρ c (Proc.devRef .tc main_v28)) (W3 m ρ c (Proc.devRef .tc main_v18)) (W3 m ρ c (Proc.devRef .tc main_arg6)) (W3 m ρ c (Proc.devRef .tc main_arg7)) (W3 m ρ c (Proc.devRef .tc main_arg8)) = _
  rw [w3_v28, w3_v18, w3_arg6, w3_arg7, w3_arg8]
  rfl
theorem w4_v1 : W4 m ρ c (Proc.devRef .tc main_v1) = Cert.ReferenceIdeal.Read.val_main_v1 (F := Ideal) (m ((c : Thread nD τ).loc main_arg1)) := (W4_of_ne m ρ c main_v1 (by decide)).trans (w3_v1 m ρ c)
theorem w4_v3 : W4 m ρ c (Proc.devRef .tc main_v3) = Cert.ReferenceIdeal.Read.val_main_v3 (F := Ideal) (m ((c : Thread nD τ).loc main_arg1)) := (W4_of_ne m ρ c main_v3 (by decide)).trans (w3_v3 m ρ c)
theorem w4_v7 : W4 m ρ c (Proc.devRef .tc main_v7) = Cert.ReferenceIdeal.Stages.colshare (F := Ideal) (m ((c : Thread nD τ).loc main_arg0)) := (W4_of_ne m ρ c main_v7 (by decide)).trans (w3_v7 m ρ c)
theorem w4_arg2 : W4 m ρ c (Proc.devRef .tc main_arg2) = m ((c : Thread nD τ).loc main_arg2) := (W4_of_ne m ρ c main_arg2 (by decide)).trans (w3_arg2 m ρ c)
theorem w4_arg9 : W4 m ρ c (Proc.devRef .tc main_arg9) = m ((c : Thread nD τ).loc main_arg9) := (W4_of_ne m ρ c main_arg9 (by decide)).trans (w3_arg9 m ρ c)
theorem w4_arg10 : W4 m ρ c (Proc.devRef .tc main_arg10) = m ((c : Thread nD τ).loc main_arg10) := (W4_of_ne m ρ c main_arg10 (by decide)).trans (w3_arg10 m ρ c)
theorem w4_arg11 : W4 m ρ c (Proc.devRef .tc main_arg11) = m ((c : Thread nD τ).loc main_arg11) := (W4_of_ne m ρ c main_arg11 (by decide)).trans (w3_arg11 m ρ c)

/-! ## At the third launch's entry: the third aggregation -/

theorem w5_v39 : W5 m ρ c (Proc.devRef .tc main_v39) = Cert.ReferenceIdeal.Stages.agg (F := Ideal) (Cert.ReferenceIdeal.Stages.h2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg1)) := by
  refine (Host.s2_v39 (W4 m ρ c)).trans ?_
  rw [w4_v29, w4_v1, w4_v3]
  exact (Cert.ReferenceIdeal.Stages.agg_eq _ _).symm
theorem w5_v29 : W5 m ρ c (Proc.devRef .tc main_v29) = Cert.ReferenceIdeal.Stages.h2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := (Host.s2_v29 (W4 m ρ c)).trans (w4_v29 m ρ c)
theorem w5_v7 : W5 m ρ c (Proc.devRef .tc main_v7) = Cert.ReferenceIdeal.Stages.colshare (F := Ideal) (m ((c : Thread nD τ).loc main_arg0)) := (Host.s2_v7 (W4 m ρ c)).trans (w4_v7 m ρ c)
theorem w5_arg2 : W5 m ρ c (Proc.devRef .tc main_arg2) = m ((c : Thread nD τ).loc main_arg2) := (Host.s2_arg2 (W4 m ρ c)).trans (w4_arg2 m ρ c)
theorem w5_arg9 : W5 m ρ c (Proc.devRef .tc main_arg9) = m ((c : Thread nD τ).loc main_arg9) := (Host.s2_arg9 (W4 m ρ c)).trans (w4_arg9 m ρ c)
theorem w5_arg10 : W5 m ρ c (Proc.devRef .tc main_arg10) = m ((c : Thread nD τ).loc main_arg10) := (Host.s2_arg10 (W4 m ρ c)).trans (w4_arg10 m ρ c)
theorem w5_arg11 : W5 m ρ c (Proc.devRef .tc main_arg11) = m ((c : Thread nD τ).loc main_arg11) := (Host.s2_arg11 (W4 m ρ c)).trans (w4_arg11 m ρ c)

/-! ## At the third launch's exit: the third layer's output -/

theorem w6_v40 : W6 m ρ c (Proc.devRef .tc main_v40) = Cert.ReferenceIdeal.Stages.h3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W6_arr m ρ c 5).trans ((R2.final (V5 m ρ) c).trans ?_)
  show Cert.ReferenceIdeal.Stages.layer (F := Ideal) (W5 m ρ c (Proc.devRef .tc main_v39)) (W5 m ρ c (Proc.devRef .tc main_v29)) (W5 m ρ c (Proc.devRef .tc main_arg9)) (W5 m ρ c (Proc.devRef .tc main_arg10)) (W5 m ρ c (Proc.devRef .tc main_arg11)) = _
  rw [w5_v39, w5_v29, w5_arg9, w5_arg10, w5_arg11]
  rfl
theorem w6_v7 : W6 m ρ c (Proc.devRef .tc main_v7) = Cert.ReferenceIdeal.Stages.colshare (F := Ideal) (m ((c : Thread nD τ).loc main_arg0)) := (W6_of_ne m ρ c main_v7 (by decide)).trans (w5_v7 m ρ c)
theorem w6_arg2 : W6 m ρ c (Proc.devRef .tc main_arg2) = m ((c : Thread nD τ).loc main_arg2) := (W6_of_ne m ρ c main_arg2 (by decide)).trans (w5_arg2 m ρ c)

/-! ## At the end: the two results -/

/-- The first result: the third layer's output pooled by graph. -/
theorem w7_v51 : W7 m ρ c (Proc.devRef .tc main_v51) = Cert.ReferenceIdeal.Stages.pool (F := Ideal) (Cert.ReferenceIdeal.Stages.h3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (m ((c : Thread nD τ).loc main_arg2)) := by
  refine (Host.s3_v51 (W6 m ρ c)).trans ?_
  rw [w6_v40, w6_arg2]
/-- The second result: the column shares of `x`. -/
theorem w7_v7 : W7 m ρ c (Proc.devRef .tc main_v7) = Cert.ReferenceIdeal.Stages.colshare (F := Ideal) (m ((c : Thread nD τ).loc main_arg0)) := (Host.s3_v7 (W6 m ρ c)).trans (w6_v7 m ρ c)

/-! ## The run -/

/-- Every weakly fair execution of the kernel program terminates with its two results at those functions of the
    arguments, and the arguments as launched. -/
theorem run : θ_run defs (onTc (τ := τ) (main (F := Ideal))) ⟨m, fun _ => 0, ρ⟩ (fun r => ∀ c : Dev nD,
      r.2.mem ((c.tc : Thread nD τ).loc main_v51) = Cert.ReferenceIdeal.Stages.pool (F := Ideal) (Cert.ReferenceIdeal.Stages.h3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (m ((c : Thread nD τ).loc main_arg2))
      ∧ r.2.mem ((c.tc : Thread nD τ).loc main_v7) = Cert.ReferenceIdeal.Stages.colshare (F := Ideal) (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (w7_v51 m ρ c), (h c).2.1.trans (w7_v7 m ρ c), (h c).2.2⟩) (run_named m ρ)

end Cert.KernelIdeal.LayerValue

end
-- ==== Proof.lean ====
/-
  The kernel program and its reference compute the same two results over the extended reals.

  Both programs are a three-layer graph convolution with mean pooling, beside the column shares of the input.
  They run the same host operations around the layers — gather the rows at the edges' sources, add them up at the
  targets, pool by graph, divide — and differ only in how a layer `max (agg · W_rel + h · W_root + b, 0)` is
  computed: the reference by two host matrix products, a bias broadcast and a maximum over the whole 50000-row
  arrays; the kernel program by a launch that walks the rows in ten blocks of 5000, narrowing its operands to
  bfloat16 before the products. Over the extended reals the narrowing is the identity and a product into a zero
  accumulator is the plain sum, so entry `(r, j)` of either side is the same number, `GraphConv.entry` of row `r` of the
  two feature arrays (LayerEntry, KernelPay, RefStages); the ten blocks tile the output (KernelRegion0–2); and the
  host operations between the launches are the reference's stages of what they read (KernelHost, KernelValue). No
  law used needs the inputs to be finite — only that sums may be regrouped — so the precondition is never opened.

  The frames: the kernel programs' are the launch over their segments; the reference's is its run with the results
  dropped. The idealization rewrote no operation, so `preserves` has nothing to state.
-/
import proofs.«172164_j18305150615818_1_alg».proof.Defs
import proofs.«172164_j18305150615818_1_alg».proof.Proof.Gen.Kernel
import proofs.«172164_j18305150615818_1_alg».proof.Proof.KernelFrameP
import proofs.«172164_j18305150615818_1_alg».proof.Proof.Gen.KernelIdeal
import proofs.«172164_j18305150615818_1_alg».proof.Proof.KernelIdealFrameP
import proofs.«172164_j18305150615818_1_alg».proof.Proof.KernelValue
import proofs.«172164_j18305150615818_1_alg».proof.Proof.Gen.ReferenceIdeal
import proofs.«172164_j18305150615818_1_alg».proof.Proof.Gen.ReferenceIdeal.Run
import proofs.«172164_j18305150615818_1_alg».proof.Proof.Gen.ReferenceIdeal.Read
import proofs.«172164_j18305150615818_1_alg».proof.Proof.RefStages
import proofs.«172164_j18305150615818_1_alg».proof.Proof.Gen.Pre_finite_inputs
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.GenP.frame m ρ
theorem frame_kernelIdeal : Cert.frame_KernelIdeal := fun m ρ _ => Cert.KernelIdeal.GenP.frame m ρ
theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories that agree on the arguments the kernel program ends at the pooling of its third launch's output
    and at the column shares of `x` (KernelValue), the reference at its own two stages of its arguments, which are
    those same compositions (RefStages). -/
theorem algebraic : Cert.algebraic_KernelIdeal_ReferenceIdeal := by
  intro m ρ m' ρ' _ hagree
  refine ⟨_, _, Cert.KernelIdeal.LayerValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11⟩ := hagree c
    rw [Cert.ReferenceIdeal.Read.val_main_v69_eq, Cert.ReferenceIdeal.Stages.v69_eq, e0, e1, e2, e3, e4, e5, e6, e7, e8, e9, e10, e11]
  · rw [(hagree c).1]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
